-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x256 : Shape := ⟨2, ![320000, 256]⟩
abbrev S320000x128 : Shape := ⟨2, ![320000, 128]⟩
abbrev S256x256 : Shape := ⟨2, ![256, 256]⟩
abbrev S128x256 : Shape := ⟨2, ![128, 256]⟩
abbrev S1x256 : Shape := ⟨2, ![1, 256]⟩
abbrev S_ : Shape := ⟨0, ![]⟩

class Facts : Prop where
  bcast_S_S320000x256 : S_.BroadcastsInDim S320000x256 (![] : Fin 0 → Fin S320000x256.rank)
  reducesTo_S320000x256_S_d0_1 : S320000x256.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S128x256 .f32) (main_arg5 : FVec F S256x256 .f32) (main_arg6 : FVec F S1x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  main_v33

def fn {F : FTy → Type} [FloatOps F] (main_arg0 : FVec F S320000x256 .f32) (main_arg1 : FVec F S320000x128 .f32) (main_arg2 : FVec F S320000x256 .f32) (main_arg3 : FVec F S256x256 .f32) (main_arg4 : FVec F S128x256 .f32) (main_arg5 : FVec F S256x256 .f32) (main_arg6 : FVec F S1x256 .f32) : IVec S_ 1 :=
  let main_v0 : FVec F S320000x256 .f32 := Host.absf main_arg0
  let main_cst : FVec F S_ .f32 := constant S_ .f32 0x7F800000#32
  let main_v1 : FVec F S320000x256 .f32 := broadcastInDim S320000x256 ![] bcast_S_S320000x256 main_cst
  let main_v2 : IVec S320000x256 1 := cmpf .olt main_v0 main_v1
  let main_c : IVec S_ 1 := constantI S_ 1 1#1
  let main_v3 : IVec S_ 1 := (fun x v => Host.reduce IntOp.andi x v reducesTo_S320000x256_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S320000x256 .f32 := Host.absf main_arg2
  let main_cst_2 : FVec F S_ .f32 := constant S_ .f32 0x7F800000#32
  let main_v10 : FVec F S320000x256 .f32 := broadcastInDim S320000x256 ![] bcast_S_S320000x256 main_cst_2
  let main_v11 : IVec S320000x256 1 := cmpf .olt main_v9 main_v10
  let main_c_3 : IVec S_ 1 := constantI S_ 1 1#1
  let main_v12 : IVec S_ 1 := (fun x v => Host.reduce IntOp.andi x v reducesTo_S320000x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S320000x256 : Shape := ⟨2, ![320000, 256]⟩
abbrev S320000x128 : Shape := ⟨2, ![320000, 128]⟩
abbrev S256x256 : Shape := ⟨2, ![256, 256]⟩
abbrev S128x256 : Shape := ⟨2, ![128, 256]⟩
abbrev S1x256 : Shape := ⟨2, ![1, 256]⟩
abbrev S6400x256 : Shape := ⟨2, ![6400, 256]⟩
abbrev S6400x128 : Shape := ⟨2, ![6400, 128]⟩

abbrev nBuf : Space → Nat
  | .hbm => 8
  | .vmem => 12
  | .smem => 0
  | _ => 0

abbrev bufTy : (tb : Table) → Fin (tcTables nBuf tb) → BufTy
  | .hbm, ⟨0, _⟩ => ⟨S320000x256, .f32⟩
  | .hbm, ⟨1, _⟩ => ⟨S320000x128, .f32⟩
  | .hbm, ⟨2, _⟩ => ⟨S320000x256, .f32⟩
  | .hbm, ⟨3, _⟩ => ⟨S256x256, .f32⟩
  | .hbm, ⟨4, _⟩ => ⟨S128x256, .f32⟩
  | .hbm, ⟨5, _⟩ => ⟨S256x256, .f32⟩
  | .hbm, ⟨6, _⟩ => ⟨S1x256, .f32⟩
  | .hbm, ⟨7, _⟩ => ⟨S320000x256, .f32⟩
  | .local _ .vmem, ⟨0, _⟩ => ⟨S6400x256, .f32⟩
  | .local _ .vmem, ⟨1, _⟩ => ⟨S6400x256, .f32⟩
  | .local _ .vmem, ⟨2, _⟩ => ⟨S6400x128, .f32⟩
  | .local _ .vmem, ⟨3, _⟩ => ⟨S6400x128, .f32⟩
  | .local _ .vmem, ⟨4, _⟩ => ⟨S6400x256, .f32⟩
  | .local _ .vmem, ⟨5, _⟩ => ⟨S6400x256, .f32⟩
  | .local _ .vmem, ⟨6, _⟩ => ⟨S256x256, .f32⟩
  | .local _ .vmem, ⟨7, _⟩ => ⟨S128x256, .f32⟩
  | .local _ .vmem, ⟨8, _⟩ => ⟨S256x256, .f32⟩
  | .local _ .vmem, ⟨9, _⟩ => ⟨S1x256, .f32⟩
  | .local _ .vmem, ⟨10, _⟩ => ⟨S6400x256, .f32⟩
  | .local _ .vmem, ⟨11, _⟩ => ⟨S6400x256, .f32⟩
  | _, _ => ⟨S320000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S6400x256_S6400x256_0_0 : ∀ a, (![0, 0] : Fin 2 → Nat) a + S6400x256.size a ≤ S6400x256.size a
  h_S6400x256 : 0 < S6400x256.numel
  inb_S256x256_S256x256_0_0 : ∀ a, (![0, 0] : Fin 2 → Nat) a + S256x256.size a ≤ S256x256.size a
  h_S256x256 : 0 < S256x256.numel
  inb_S6400x128_S6400x128_0_0 : ∀ a, (![0, 0] : Fin 2 → Nat) a + S6400x128.size a ≤ S6400x128.size a
  h_S6400x128 : 0 < S6400x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  broadcasts_S1x256_S6400x256 : S1x256.Broadcasts S6400x256
  dot_S6400x256_S256x256_S6400x256_1_0_0_1_n_n_wf : DotDims.WF S6400x256 S256x256 S6400x256 [1] [0] [0] [1] [] []
  dot_S6400x128_S128x256_S6400x256_1_0_0_1_n_n_wf : DotDims.WF S6400x128 S128x256 S6400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S320000x256.size a
  hwx0_0 : ∀ i : grid0.Coords, EltTy.bits .f32 = 32 ∨ (Rect.block (s := S320000x256) S6400x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S320000x128.size a
  hwx0_1 : ∀ i : grid0.Coords, EltTy.bits .f32 = 32 ∨ (Rect.block (s := S320000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x256.size a ≤ S320000x256.size a
  hwx0_2 : ∀ i : grid0.Coords, EltTy.bits .f32 = 32 ∨ (Rect.block (s := S320000x256) S6400x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x256.size a ≤ S320000x256.size a
  hwx0_7 : ∀ i : grid0.Coords, EltTy.bits .f32 = 32 ∨ (Rect.block (s := S320000x256) S6400x256.size (cc0_transform_7 i) (hinb0_7 i)).WholeWords (EltTy.packing .f32)

variable [Facts₀]

def dot_S6400x256_S256x256_S6400x256_1_0_0_1_n_n : DotDims S6400x256 S256x256 S6400x256 where
  lhsContracting := [1]
  rhsContracting := [0]
  lhsNonContracting := [0]
  rhsNonContracting := [1]
  lhsBatch := []
  rhsBatch := []
  wf := dot_S6400x256_S256x256_S6400x256_1_0_0_1_n_n_wf
def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf

abbrev win0_0 : Pipeline.Window sig grid0 :=
  Pipeline.Window.ofSpec (Memref.whole main_arg0) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S6400x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S320000x256 : Shape := ⟨2, ![320000, 256]⟩
abbrev S320000x128 : Shape := ⟨2, ![320000, 128]⟩
abbrev S256x256 : Shape := ⟨2, ![256, 256]⟩
abbrev S128x256 : Shape := ⟨2, ![128, 256]⟩
abbrev S1x256 : Shape := ⟨2, ![1, 256]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S320000x256, .f32⟩
  | .hbm, ⟨1, _⟩ => ⟨S320000x128, .f32⟩
  | .hbm, ⟨2, _⟩ => ⟨S320000x256, .f32⟩
  | .hbm, ⟨3, _⟩ => ⟨S256x256, .f32⟩
  | .hbm, ⟨4, _⟩ => ⟨S128x256, .f32⟩
  | .hbm, ⟨5, _⟩ => ⟨S256x256, .f32⟩
  | .hbm, ⟨6, _⟩ => ⟨S1x256, .f32⟩
  | .hbm, ⟨7, _⟩ => ⟨S320000x256, .f32⟩
  | .hbm, ⟨8, _⟩ => ⟨S320000x256, .f32⟩
  | .hbm, ⟨9, _⟩ => ⟨S320000x256, .f32⟩
  | .hbm, ⟨10, _⟩ => ⟨S320000x256, .f32⟩
  | .hbm, ⟨11, _⟩ => ⟨S320000x256, .f32⟩
  | .hbm, ⟨12, _⟩ => ⟨S320000x256, .f32⟩
  | .hbm, ⟨13, _⟩ => ⟨S320000x256, .f32⟩
  | .hbm, ⟨14, _⟩ => ⟨S_, .f32⟩
  | .hbm, ⟨15, _⟩ => ⟨S320000x256, .f32⟩
  | .hbm, ⟨16, _⟩ => ⟨S320000x256, .f32⟩
  | _, _ => ⟨S320000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  dot_S320000x256_S256x256_S320000x256_1_0_0_1_n_n_wf : DotDims.WF S320000x256 S256x256 S320000x256 [1] [0] [0] [1] [] []
  dot_S320000x128_S128x256_S320000x256_1_0_0_1_n_n_wf : DotDims.WF S320000x128 S128x256 S320000x256 [1] [0] [0] [1] [] []

variable [Facts₀]

def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S320000x128_S128x256_S320000x256_1_0_0_1_n_n : DotDims S320000x128 S128x256 S320000x256 where
  lhsContracting := [1]
  rhsContracting := [0]
  lhsNonContracting := [0]
  rhsNonContracting := [1]
  lhsBatch := []
  rhsBatch := []
  wf := dot_S320000x128_S128x256_S320000x256_1_0_0_1_n_n_wf

class Facts : Prop extends Facts₀ where

variable [Facts]
-- ==== Proof.LayerSpec.lean ====
/-
  The function both programs compute, stated once and index by index over the extended reals.

  The layer takes three row-major feature arrays with a common number of rows (320000) and widths
  256, 128 and 256, three weight matrices mapping each width to 256 columns, and one bias row. Entry
  (r, c) of the result is

      max ( ((Σ_k x[r,k]·w1[k,c] + Σ_k e[r,k]·w2[k,c]) + Σ_k s[r,k]·w3[k,c]) + b[0,c] , 0 ).

  The three inner products are plain finite sums of products of extended reals; the sums are added
  left to right, the bias row is added last, and the result is clamped below at zero. Row r of the
  result depends only on row r of each feature array, on the whole of each weight matrix, and on the
  bias row — which is why cutting the rows into consecutive bands and computing band by band gives
  the same array.
-/
import Idealize.ShloMosaic.PureOps.Ideal
import Idealize.ShloMosaic.Lib.ValueIdx

noncomputable section

open scoped BigOperators
open Idealize.ShloMosaic Idealize.ShloMosaic.ValueIdx

namespace Cert.LayerSpec

/-- One entry of the layer from a row of each feature array (given as functions of the contracted
    coordinate), a column of each weight matrix, and the bias entry of that column. -/
def entry (xr : Fin 256 → EReal) (er : Fin 128 → EReal) (sr : Fin 256 → EReal)
    (w1c : Fin 256 → EReal) (w2c : Fin 128 → EReal) (w3c : Fin 256 → EReal) (bc : EReal) : EReal :=
  max ((((∑ k : Fin 256, xr k * w1c k) + (∑ k : Fin 128, er k * w2c k)) + (∑ k : Fin 256, sr k * w3c k)) + bc) 0

/-- The whole result array: entry (r, c) is `entry` of row r of the features and column c of the
    weights and bias. -/
def layer (x : (⟨2, ![320000, 256]⟩ : Shape).Idx → EReal) (e : (⟨2, ![320000, 128]⟩ : Shape).Idx → EReal)
    (s : (⟨2, ![320000, 256]⟩ : Shape).Idx → EReal) (w1 : (⟨2, ![256, 256]⟩ : Shape).Idx → EReal)
    (w2 : (⟨2, ![128, 256]⟩ : Shape).Idx → EReal) (w3 : (⟨2, ![256, 256]⟩ : Shape).Idx → EReal)
    (b : (⟨2, ![1, 256]⟩ : Shape).Idx → EReal) : (⟨2, ![320000, 256]⟩ : Shape).Idx → EReal :=
  fun i => entry (fun k => x (ix2 (i 0) k)) (fun k => e (ix2 (i 0) k)) (fun k => s (ix2 (i 0) k))
    (fun k => w1 (ix2 k (i 1))) (fun k => w2 (ix2 k (i 1))) (fun k => w3 (ix2 k (i 1))) (b (ix2 0 (i 1)))

/-- The same layer on one band of 6400 rows: what a single grid point computes from its blocks. -/
def band (x : (⟨2, ![6400, 256]⟩ : Shape).Idx → EReal) (e : (⟨2, ![6400, 128]⟩ : Shape).Idx → EReal)
    (s : (⟨2, ![6400, 256]⟩ : Shape).Idx → EReal) (w1 : (⟨2, ![256, 256]⟩ : Shape).Idx → EReal)
    (w2 : (⟨2, ![128, 256]⟩ : Shape).Idx → EReal) (w3 : (⟨2, ![256, 256]⟩ : Shape).Idx → EReal)
    (b : (⟨2, ![1, 256]⟩ : Shape).Idx → EReal) : (⟨2, ![6400, 256]⟩ : Shape).Idx → EReal :=
  fun j => entry (fun k => x (ix2 (j 0) k)) (fun k => e (ix2 (j 0) k)) (fun k => s (ix2 (j 0) k))
    (fun k => w1 (ix2 k (j 1))) (fun k => w2 (ix2 k (j 1))) (fun k => w3 (ix2 k (j 1))) (b (ix2 0 (j 1)))

end Cert.LayerSpec

end
-- ==== Proof.KernelBand.lean ====
/-
  What one grid point computes from its blocks is the layer of LayerSpec on a band of 6400 rows.

  The body multiplies each of its three feature blocks (6400 rows) with the matching weight matrix,
  each product accumulated into a zero array, adds the three products left to right, adds the bias
  row stretched over the 6400 rows, and takes the maximum with zero. Over the extended reals a
  matrix product into a zero accumulator is, at entry (p, q), the plain sum over the shared axis of
  left (p, k) times right (k, q); the stretched bias reads the bias row at (0, q). So entry (p, q)
  of the body's result is the specification's `entry` of row p of the feature blocks and column q
  of the weights and bias.
-/
import proofs.«404895_j3556232921667_3_alg».proof.Proof.Gen.KernelIdeal.Skeleton
import proofs.«404895_j3556232921667_3_alg».proof.Proof.LayerSpec
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Band

open Cert.KernelIdeal Cert.KernelIdeal.Gen

/-! ## The operand coordinates of the two matrix products

For a product of a [6400, K] block with a [K, 256] matrix, output entry j and contraction index q:
the left operand is read at (row of j, q) and the right operand at (q, column of j). -/

theorem lhsA_0 (j : S6400x256.Idx) (q : dot_S6400x256_S256x256_S6400x256_1_0_0_1_n_n.contr.Idx) :
    (dot_S6400x256_S256x256_S6400x256_1_0_0_1_n_n.lhsIdx j q 0).val = (j 0).val := by
  unfold DotDims.lhsIdx
  rw [dif_neg (show ¬(0 : Fin S6400x256.rank) ∈ dot_S6400x256_S256x256_S6400x256_1_0_0_1_n_n.lhsBatch by decide), dif_pos (show (0 : Fin S6400x256.rank) ∈ dot_S6400x256_S256x256_S6400x256_1_0_0_1_n_n.lhsNonContracting by decide)]
  rfl
theorem lhsA_1 (j : S6400x256.Idx) (q : dot_S6400x256_S256x256_S6400x256_1_0_0_1_n_n.contr.Idx) :
    (dot_S6400x256_S256x256_S6400x256_1_0_0_1_n_n.lhsIdx j q 1).val = (q ⟨0, by decide⟩).val :=
  dot_S6400x256_S256x256_S6400x256_1_0_0_1_n_n.lhsIdx_val_of_single rfl j q
theorem rhsA_0 (j : S6400x256.Idx) (q : dot_S6400x256_S256x256_S6400x256_1_0_0_1_n_n.contr.Idx) :
    (dot_S6400x256_S256x256_S6400x256_1_0_0_1_n_n.rhsIdx j q 0).val = (q ⟨0, by decide⟩).val :=
  dot_S6400x256_S256x256_S6400x256_1_0_0_1_n_n.rhsIdx_val_of_single rfl j q
theorem rhsA_1 (j : S6400x256.Idx) (q : dot_S6400x256_S256x256_S6400x256_1_0_0_1_n_n.contr.Idx) :
    (dot_S6400x256_S256x256_S6400x256_1_0_0_1_n_n.rhsIdx j q 1).val = (j 1).val := by
  unfold DotDims.rhsIdx
  rw [dif_neg (show ¬(1 : Fin S256x256.rank) ∈ dot_S6400x256_S256x256_S6400x256_1_0_0_1_n_n.rhsBatch by decide), dif_pos (show (1 : Fin S256x256.rank) ∈ dot_S6400x256_S256x256_S6400x256_1_0_0_1_n_n.rhsNonContracting by decide)]
  rfl

theorem lhsB_0 (j : S6400x256.Idx) (q : dot_S6400x128_S128x256_S6400x256_1_0_0_1_n_n.contr.Idx) :
    (dot_S6400x128_S128x256_S6400x256_1_0_0_1_n_n.lhsIdx j q 0).val = (j 0).val := by
  unfold DotDims.lhsIdx
  rw [dif_neg (show ¬(0 : Fin S6400x128.rank) ∈ dot_S6400x128_S128x256_S6400x256_1_0_0_1_n_n.lhsBatch by decide), dif_pos (show (0 : Fin S6400x128.rank) ∈ dot_S6400x128_S128x256_S6400x256_1_0_0_1_n_n.lhsNonContracting by decide)]
  rfl
theorem lhsB_1 (j : S6400x256.Idx) (q : dot_S6400x128_S128x256_S6400x256_1_0_0_1_n_n.contr.Idx) :
    (dot_S6400x128_S128x256_S6400x256_1_0_0_1_n_n.lhsIdx j q 1).val = (q ⟨0, by decide⟩).val :=
  dot_S6400x128_S128x256_S6400x256_1_0_0_1_n_n.lhsIdx_val_of_single rfl j q
theorem rhsB_0 (j : S6400x256.Idx) (q : dot_S6400x128_S128x256_S6400x256_1_0_0_1_n_n.contr.Idx) :
    (dot_S6400x128_S128x256_S6400x256_1_0_0_1_n_n.rhsIdx j q 0).val = (q ⟨0, by decide⟩).val :=
  dot_S6400x128_S128x256_S6400x256_1_0_0_1_n_n.rhsIdx_val_of_single rfl j q
theorem rhsB_1 (j : S6400x256.Idx) (q : dot_S6400x128_S128x256_S6400x256_1_0_0_1_n_n.contr.Idx) :
    (dot_S6400x128_S128x256_S6400x256_1_0_0_1_n_n.rhsIdx j q 1).val = (j 1).val := by
  unfold DotDims.rhsIdx
  rw [dif_neg (show ¬(1 : Fin S128x256.rank) ∈ dot_S6400x128_S128x256_S6400x256_1_0_0_1_n_n.rhsBatch by decide), dif_pos (show (1 : Fin S128x256.rank) ∈ dot_S6400x128_S128x256_S6400x256_1_0_0_1_n_n.rhsNonContracting by decide)]
  rfl

/-! ## A matrix product into the zero accumulator, read at an entry -/

/-- A [6400, 256] by [256, 256] product into zeros: entry j is the sum over the 256 shared coordinates. -/
theorem mmA_apply (l : FVec Ideal S6400x256 .f32) (r : FVec Ideal S256x256 .f32) (j : S6400x256.Idx) :
    matmul dot_S6400x256_S256x256_S6400x256_1_0_0_1_n_n (some .fp32) l r (constant (F := Ideal) S6400x256 .f32 0x00000000#32) j
      = ∑ k : Fin 256, l (ix2 (j 0) k) * r (ix2 k (j 1)) := by
  simp only [matmul]
  rw [Ideal.matmul_constant_zero_apply, ← Equiv.sum_comp (contrEquiv1 dot_S6400x256_S256x256_S6400x256_1_0_0_1_n_n 256 rfl rfl).symm]
  refine Finset.sum_congr rfl fun k _ => ?_
  have hk := contrEquiv1_symm_val dot_S6400x256_S256x256_S6400x256_1_0_0_1_n_n 256 rfl rfl k
  have el : dot_S6400x256_S256x256_S6400x256_1_0_0_1_n_n.lhsIdx j ((contrEquiv1 dot_S6400x256_S256x256_S6400x256_1_0_0_1_n_n 256 rfl rfl).symm k) = ix2 (j 0) k := funext fun a => Fin.ext (by
    match a with
    | ⟨0, _⟩ => exact lhsA_0 _ _
    | ⟨1, _⟩ => exact (lhsA_1 _ _).trans hk)
  have er : dot_S6400x256_S256x256_S6400x256_1_0_0_1_n_n.rhsIdx j ((contrEquiv1 dot_S6400x256_S256x256_S6400x256_1_0_0_1_n_n 256 rfl rfl).symm k) = ix2 k (j 1) := funext fun a => Fin.ext (by
    match a with
    | ⟨0, _⟩ => exact (rhsA_0 _ _).trans hk
    | ⟨1, _⟩ => exact rhsA_1 _ _)
  rw [el, er]
  rfl

/-- A [6400, 128] by [128, 256] product into zeros: entry j is the sum over the 128 shared coordinates. -/
theorem mmB_apply (l : FVec Ideal S6400x128 .f32) (r : FVec Ideal S128x256 .f32) (j : S6400x256.Idx) :
    matmul dot_S6400x128_S128x256_S6400x256_1_0_0_1_n_n (some .fp32) l r (constant (F := Ideal) S6400x256 .f32 0x00000000#32) j
      = ∑ k : Fin 128, l (ix2 (j 0) k) * r (ix2 k (j 1)) := by
  simp only [matmul]
  rw [Ideal.matmul_constant_zero_apply, ← Equiv.sum_comp (contrEquiv1 dot_S6400x128_S128x256_S6400x256_1_0_0_1_n_n 128 rfl rfl).symm]
  refine Finset.sum_congr rfl fun k _ => ?_
  have hk := contrEquiv1_symm_val dot_S6400x128_S128x256_S6400x256_1_0_0_1_n_n 128 rfl rfl k
  have el : dot_S6400x128_S128x256_S6400x256_1_0_0_1_n_n.lhsIdx j ((contrEquiv1 dot_S6400x128_S128x256_S6400x256_1_0_0_1_n_n 128 rfl rfl).symm k) = ix2 (j 0) k := funext fun a => Fin.ext (by
    match a with
    | ⟨0, _⟩ => exact lhsB_0 _ _
    | ⟨1, _⟩ => exact (lhsB_1 _ _).trans hk)
  have er : dot_S6400x128_S128x256_S6400x256_1_0_0_1_n_n.rhsIdx j ((contrEquiv1 dot_S6400x128_S128x256_S6400x256_1_0_0_1_n_n 128 rfl rfl).symm k) = ix2 k (j 1) := funext fun a => Fin.ext (by
    match a with
    | ⟨0, _⟩ => exact (rhsB_0 _ _).trans hk
    | ⟨1, _⟩ => exact rhsB_1 _ _)
  rw [el, er]
  rfl

/-! ## The body's result on its blocks -/

/-- The value the body stores, as a function of the seven blocks it loads, is the specification's
    band: three inner products added left to right, plus the bias of the column, clamped at zero. -/
theorem pay_eq_band (x : Vec Ideal S6400x256 .f32) (w1 : Vec Ideal S256x256 .f32) (e : Vec Ideal S6400x128 .f32)
    (w2 : Vec Ideal S128x256 .f32) (s : Vec Ideal S6400x256 .f32) (w3 : Vec Ideal S256x256 .f32) (b : Vec Ideal S1x256 .f32) :
    k0_pay1 (F := Ideal) x w1 e w2 s w3 b = Cert.LayerSpec.band x e s w1 w2 w3 b := by
  funext j
  obtain ⟨p, q, rfl⟩ : ∃ (p : Fin 6400) (q : Fin 256), j = ix2 p q := ⟨j 0, j 1, eq_ix2 j⟩
  unfold k0_pay1
  show max (((matmul dot_S6400x256_S256x256_S6400x256_1_0_0_1_n_n (some .fp32) x w1 (constant (F := Ideal) S6400x256 .f32 0x00000000#32) (ix2 p q)
      + matmul dot_S6400x128_S128x256_S6400x256_1_0_0_1_n_n (some .fp32) e w2 (constant (F := Ideal) S6400x256 .f32 0x00000000#32) (ix2 p q))
      + matmul dot_S6400x256_S256x256_S6400x256_1_0_0_1_n_n (some .fp32) s w3 (constant (F := Ideal) S6400x256 .f32 0x00000000#32) (ix2 p q))
      + broadcastTo S6400x256 b broadcasts_S1x256_S6400x256 (ix2 p q)) (Ideal.ofBits .f32 0x00000000#32) = _
  rw [mmA_apply, mmB_apply, mmA_apply, broadcastTo_1b_ab_apply, Ideal.ofBits_zero_f32]
  rfl

end Cert.KernelIdeal.Band

end
-- ==== Proof.LayerBands.lean ====
/-
  A band of the layer is the layer on a band.

  Entry (r, c) of the layer reads row r of each feature array, column c of each weight matrix and
  the bias at column c, and nothing else. So if seven smaller arrays agree with the seven whole ones
  along row p / row r of the features and along column q / column c of the weights and bias, the
  band computed from the smaller arrays has at (p, q) the entry the whole layer has at (r, c). This
  is the one fact behind computing the layer band by band.
-/
import proofs.«404895_j3556232921667_3_alg».proof.Proof.LayerSpec

noncomputable section

open scoped BigOperators
open Idealize.ShloMosaic Idealize.ShloMosaic.ValueIdx

namespace Cert.LayerSpec

/-- Agreement along one row and one column gives agreement of the entries. -/
theorem band_eq_layer_at
    (x : (⟨2, ![320000, 256]⟩ : Shape).Idx → EReal) (e : (⟨2, ![320000, 128]⟩ : Shape).Idx → EReal)
    (s : (⟨2, ![320000, 256]⟩ : Shape).Idx → EReal) (w1 : (⟨2, ![256, 256]⟩ : Shape).Idx → EReal)
    (w2 : (⟨2, ![128, 256]⟩ : Shape).Idx → EReal) (w3 : (⟨2, ![256, 256]⟩ : Shape).Idx → EReal)
    (b : (⟨2, ![1, 256]⟩ : Shape).Idx → EReal)
    (xb : (⟨2, ![6400, 256]⟩ : Shape).Idx → EReal) (eb : (⟨2, ![6400, 128]⟩ : Shape).Idx → EReal)
    (sb : (⟨2, ![6400, 256]⟩ : Shape).Idx → EReal) (w1b : (⟨2, ![256, 256]⟩ : Shape).Idx → EReal)
    (w2b : (⟨2, ![128, 256]⟩ : Shape).Idx → EReal) (w3b : (⟨2, ![256, 256]⟩ : Shape).Idx → EReal)
    (bb : (⟨2, ![1, 256]⟩ : Shape).Idx → EReal)
    (j : (⟨2, ![6400, 256]⟩ : Shape).Idx) (i : (⟨2, ![320000, 256]⟩ : Shape).Idx)
    (hx : ∀ k : Fin 256, xb (ix2 (j 0) k) = x (ix2 (i 0) k))
    (he : ∀ k : Fin 128, eb (ix2 (j 0) k) = e (ix2 (i 0) k))
    (hs : ∀ k : Fin 256, sb (ix2 (j 0) k) = s (ix2 (i 0) k))
    (hw1 : ∀ k : Fin 256, w1b (ix2 k (j 1)) = w1 (ix2 k (i 1)))
    (hw2 : ∀ k : Fin 128, w2b (ix2 k (j 1)) = w2 (ix2 k (i 1)))
    (hw3 : ∀ k : Fin 256, w3b (ix2 k (j 1)) = w3 (ix2 k (i 1)))
    (hb : bb (ix2 0 (j 1)) = b (ix2 0 (i 1))) :
    band xb eb sb w1b w2b w3b bb j = layer x e s w1 w2 w3 b i := by
  unfold band layer
  rw [funext hx, funext he, funext hs, funext hw1, funext hw2, funext hw3, hb]

end Cert.LayerSpec

end
-- ==== Proof.KernelLayer.lean ====
/-
  The kernel's result array is the layer of LayerSpec.

  The grid has 50 points. Point t stages rows 6400·t … 6400·t + 6399 of each feature array, the whole
  of each weight matrix and the bias row, and writes back rows 6400·t … 6400·t + 6399 of the result,
  all 256 columns. The body's value on those blocks is the band of the layer (KernelBand); a row of
  the band depends only on the same row of the feature blocks, so the block written back is the
  rows 6400·t … of the whole layer of the whole arrays (LayerBands). Row r of the result lies in the
  block of point r / 6400, so the 50 blocks cover the array, and the array ends holding the layer.
-/
import proofs.«404895_j3556232921667_3_alg».proof.Proof.Gen.KernelIdeal.Value
import proofs.«404895_j3556232921667_3_alg».proof.Proof.KernelBand
import proofs.«404895_j3556232921667_3_alg».proof.Proof.LayerBands

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen

variable (m : (ℓ : Loc nD τ sig) → Buf (Elt Ideal) ℓ) (ρ : Dev nD → PrngReg)

/-- The layer of the seven argument arrays as core `c` finds them. -/
abbrev layerOf (c : Dev nD) : S320000x256.Idx → EReal :=
  Cert.LayerSpec.layer (V m c main_arg0) (V m c main_arg1) (V m c main_arg2) (V m c main_arg3) (V m c main_arg4)
    (V m c main_arg5) (V m c main_arg6)

theorem origin : (![0, 0] : Fin 2 → Nat) = fun _ => 0 := funext fun a => by fin_cases a <;> rfl

/-- Where each window's block sits at point t, decided over the 50 points: the three feature windows
    and the result window are at block row t, block column 0; the weights and the bias never move. -/
theorem block_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Entry j of the band computed from point t's blocks is the layer's entry at j's place in the
    result window's block: the feature blocks hold the rows the result block holds, the weight and
    bias blocks are the whole arrays. -/
theorem band_at_point (c : Dev nD) (t : Fin cfg0.N) (j : S6400x256.Idx) :
    Cert.LayerSpec.band (iblk m c 0 t) (iblk m c 1 t) (iblk m c 2 t) (iblk m c 3 t) (iblk m c 4 t) (iblk m c 5 t)
      (iblk m c 6 t) j = layerOf m c (((cfg0.win 7).blk t).view.emb j) := by
  obtain ⟨a0, a1, b0, b1, c0, c1, d0, d1, e0, e1, f0, f1, g0, g1, h0, h1⟩ := block_at t
  have hj0 : (j 0).val < 6400 := (j 0).isLt
  have hj1 : (j 1).val < 256 := (j 1).isLt
  have r0 : ((((cfg0.win 7).blk t).view.emb j) 0).val = win0_7.index t (0 : Fin 2) * 6400 + 1 * (j 0).val := rfl
  have r1 : ((((cfg0.win 7).blk t).view.emb j) 1).val = win0_7.index t (1 : Fin 2) * 256 + 1 * (j 1).val := rfl
  have hx : ∀ k : Fin 256, iblk m c 0 t (ix2 (j 0) k) = V m c main_arg0 (ix2 ((((cfg0.win 7).blk t).view.emb j) 0) k) := fun k => by
    show V m c main_arg0 (((cfg0.win 0).blk t).view.emb (ix2 (j 0) k)) = _
    refine congrArg _ (funext fun a => Fin.ext ?_)
    match a with
    | ⟨0, _⟩ => show win0_0.index t (0 : Fin 2) * 6400 + 1 * (j 0).val = ((((cfg0.win 7).blk t).view.emb j) 0).val; omega
    | ⟨1, _⟩ => show win0_0.index t (1 : Fin 2) * 256 + 1 * k.val = k.val; omega
  have he : ∀ k : Fin 128, iblk m c 1 t (ix2 (j 0) k) = V m c main_arg1 (ix2 ((((cfg0.win 7).blk t).view.emb j) 0) k) := fun k => by
    show V m c main_arg1 (((cfg0.win 1).blk t).view.emb (ix2 (j 0) k)) = _
    refine congrArg _ (funext fun a => Fin.ext ?_)
    match a with
    | ⟨0, _⟩ => show win0_1.index t (0 : Fin 2) * 6400 + 1 * (j 0).val = ((((cfg0.win 7).blk t).view.emb j) 0).val; omega
    | ⟨1, _⟩ => show win0_1.index t (1 : Fin 2) * 128 + 1 * k.val = k.val; omega
  have hs : ∀ k : Fin 256, iblk m c 2 t (ix2 (j 0) k) = V m c main_arg2 (ix2 ((((cfg0.win 7).blk t).view.emb j) 0) k) := fun k => by
    show V m c main_arg2 (((cfg0.win 2).blk t).view.emb (ix2 (j 0) k)) = _
    refine congrArg _ (funext fun a => Fin.ext ?_)
    match a with
    | ⟨0, _⟩ => show win0_2.index t (0 : Fin 2) * 6400 + 1 * (j 0).val = ((((cfg0.win 7).blk t).view.emb j) 0).val; omega
    | ⟨1, _⟩ => show win0_2.index t (1 : Fin 2) * 256 + 1 * k.val = k.val; omega
  have hw1 : ∀ k : Fin 256, iblk m c 3 t (ix2 k (j 1)) = V m c main_arg3 (ix2 k ((((cfg0.win 7).blk t).view.emb j) 1)) := fun k => by
    show V m c main_arg3 (((cfg0.win 3).blk t).view.emb (ix2 k (j 1))) = _
    refine congrArg _ (funext fun a => Fin.ext ?_)
    match a with
    | ⟨0, _⟩ => show win0_3.index t (0 : Fin 2) * 256 + 1 * k.val = k.val; omega
    | ⟨1, _⟩ => show win0_3.index t (1 : Fin 2) * 256 + 1 * (j 1).val = ((((cfg0.win 7).blk t).view.emb j) 1).val; omega
  have hw2 : ∀ k : Fin 128, iblk m c 4 t (ix2 k (j 1)) = V m c main_arg4 (ix2 k ((((cfg0.win 7).blk t).view.emb j) 1)) := fun k => by
    show V m c main_arg4 (((cfg0.win 4).blk t).view.emb (ix2 k (j 1))) = _
    refine congrArg _ (funext fun a => Fin.ext ?_)
    match a with
    | ⟨0, _⟩ => show win0_4.index t (0 : Fin 2) * 128 + 1 * k.val = k.val; omega
    | ⟨1, _⟩ => show win0_4.index t (1 : Fin 2) * 256 + 1 * (j 1).val = ((((cfg0.win 7).blk t).view.emb j) 1).val; omega
  have hw3 : ∀ k : Fin 256, iblk m c 5 t (ix2 k (j 1)) = V m c main_arg5 (ix2 k ((((cfg0.win 7).blk t).view.emb j) 1)) := fun k => by
    show V m c main_arg5 (((cfg0.win 5).blk t).view.emb (ix2 k (j 1))) = _
    refine congrArg _ (funext fun a => Fin.ext ?_)
    match a with
    | ⟨0, _⟩ => show win0_5.index t (0 : Fin 2) * 256 + 1 * k.val = k.val; omega
    | ⟨1, _⟩ => show win0_5.index t (1 : Fin 2) * 256 + 1 * (j 1).val = ((((cfg0.win 7).blk t).view.emb j) 1).val; omega
  have hb : iblk m c 6 t (ix2 (0 : Fin 1) (j 1)) = V m c main_arg6 (ix2 (0 : Fin 1) ((((cfg0.win 7).blk t).view.emb j) 1)) := by
    show V m c main_arg6 (((cfg0.win 6).blk t).view.emb (ix2 (0 : Fin 1) (j 1))) = _
    refine congrArg _ (funext fun a => Fin.ext ?_)
    match a with
    | ⟨0, _⟩ => show win0_6.index t (0 : Fin 2) * 1 + 1 * 0 = 0; omega
    | ⟨1, _⟩ => show win0_6.index t (1 : Fin 2) * 256 + 1 * (j 1).val = ((((cfg0.win 7).blk t).view.emb j) 1).val; omega
  exact Cert.LayerSpec.band_eq_layer_at (V m c main_arg0) (V m c main_arg1) (V m c main_arg2) (V m c main_arg3)
    (V m c main_arg4) (V m c main_arg5) (V m c main_arg6) (iblk m c 0 t) (iblk m c 1 t) (iblk m c 2 t) (iblk m c 3 t)
    (iblk m c 4 t) (iblk m c 5 t) (iblk m c 6 t) j (((cfg0.win 7).blk t).view.emb j) hx he hs hw1 hw2 hw3 hb

/-- What point t writes back is block t of the layer of the argument arrays. -/
theorem flushed_eq (c : Dev nD) (t : Fin cfg0.N) :
    (dats m 0 c).flushed 7 t = ((cfg0.win 7).blk t).view.read (Elt Ideal) (layerOf m c) := by
  rw [Cert.KernelIdeal.Value.flushed7]
  unfold out0_7
  rw [View.canon_unit_zero origin]
  simp only [View.ld_unit_zero (S := S6400x256) origin, View.ld_unit_zero (S := S6400x128) origin,
    View.ld_unit_zero (S := S256x256) origin, View.ld_unit_zero (S := S128x256) origin, View.ld_unit_zero (S := S1x256) origin]
  rw [Cert.KernelIdeal.Band.pay_eq_band]
  funext j
  exact band_at_point m c t j

/-- An index of the result array is in point t's block iff each coordinate is in the block's range. -/
theorem mem_block (t : Fin cfg0.N) (i : S320000x256.Idx) :
    i ∈ ((cfg0.win 7).blk t).view.set ↔ ∀ a : Fin 2, win0_7.index t a * S6400x256.size a ≤ (i a).val
      ∧ (i a).val < win0_7.index t a * S6400x256.size a + S6400x256.size a := by
  show i ∈ ((View.whole main_v0).slice (win0_7.rect t)).set ↔ _
  rw [View.set_slice_whole, Rect.mem_set_unit]
  exact Iff.rfl

/-- Every index of the result array is in some point's block: row r is in the block of point r / 6400. -/
theorem covered (i : S320000x256.Idx) :
    ∃ t : Fin cfg0.N, (cfg0.win 7).flush t = true ∧ i ∈ ((cfg0.win 7).blk t).view.set := by
  have hi0 : (i 0).val < 320000 := (i 0).isLt
  have hi1 : (i 1).val < 256 := (i 1).isLt
  obtain ⟨t, ht⟩ : ∃ t : Fin cfg0.N, t.val = (i 0).val / 6400 :=
    ⟨⟨(i 0).val / 6400, (show (i 0).val / 6400 < 50 by omega)⟩, rfl⟩
  obtain ⟨a0, a1, b0, b1, c0, c1, d0, d1, e0, e1, f0, f1, g0, g1, h0, h1⟩ := block_at t
  refine ⟨t, flush0_7 t, ?_⟩
  rw [mem_block]
  intro a
  match a with
  | ⟨0, _⟩ =>
    show win0_7.index t (0 : Fin 2) * 6400 ≤ (i 0).val ∧ (i 0).val < win0_7.index t (0 : Fin 2) * 6400 + 6400
    omega
  | ⟨1, _⟩ =>
    show win0_7.index t (1 : Fin 2) * 256 ≤ (i 1).val ∧ (i 1).val < win0_7.index t (1 : Fin 2) * 256 + 256
    omega

/-- After the run the result array holds the layer of the argument arrays. -/
theorem final (c : Dev nD) : (dats m 0 c).arrAt 7 cfg0.N = layerOf m c :=
  (dats m 0 c).arrAt_eq_of_cover 7 (layerOf m c) (fun t _ => flushed_eq m c t) covered

/-- Every weakly fair execution terminates with the result array at the layer of the argument
    arrays as launched, and the argument arrays unchanged. -/
theorem run : θ_run defs (onTc (τ := τ) (main (F := Ideal))) ⟨m, fun _ => 0, ρ⟩ fun r => ∀ c : Dev nD,
      r.2.mem ((c : Thread nD τ).loc main_v0) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Layer

end
-- ==== Proof.RefLayer.lean ====
/-
  The reference computes the layer of LayerSpec.

  Read one operation at a time, entry i of the reference's result is the maximum of zero and the
  sum, taken left to right, of three inner products and the bias entry of i's column. Each inner
  product runs over the shared axis of a feature row and a weight column: its k-th term multiplies
  the feature array at (row of i, k) with the weight matrix at (k, column of i). The bias array has
  a single row, so the broadcast reads it at (0, column of i). These are, literally, the coordinates
  the specification names, so the two sides agree term by term; the zero the maximum is taken
  against is the all-zero word, which denotes the extended real 0.
-/
import proofs.«404895_j3556232921667_3_alg».proof.Proof.Gen.ReferenceIdeal.Read
import proofs.«404895_j3556232921667_3_alg».proof.Proof.LayerSpec

noncomputable section

open scoped BigOperators
open Idealize.ShloMosaic Idealize.ShloMosaic.ValueIdx

namespace Cert.ReferenceIdeal.RefLayer

open Cert.ReferenceIdeal Cert.ReferenceIdeal.Read

/-- The left operand's coordinates of an inner product over 256 terms: (row of i, k). -/
theorem lidx256 (i : S320000x256.Idx) (k : Fin 256) : lidx_main_v0 i k = ix2 (i 0) k :=
  funext fun a => by match a with | ⟨0, _⟩ => rfl | ⟨1, _⟩ => rfl
/-- The right operand's coordinates of an inner product over 256 terms: (k, column of i). -/
theorem ridx256 (i : S320000x256.Idx) (k : Fin 256) : ridx_main_v0 i k = ix2 k (i 1) :=
  funext fun a => by match a with | ⟨0, _⟩ => rfl | ⟨1, _⟩ => rfl
/-- The same for the inner product over 128 terms. -/
theorem lidx128 (i : S320000x256.Idx) (k : Fin 128) : lidx_main_v1 i k = ix2 (i 0) k :=
  funext fun a => by match a with | ⟨0, _⟩ => rfl | ⟨1, _⟩ => rfl
theorem ridx128 (i : S320000x256.Idx) (k : Fin 128) : ridx_main_v1 i k = ix2 k (i 1) :=
  funext fun a => by match a with | ⟨0, _⟩ => rfl | ⟨1, _⟩ => rfl
/-- The third inner product has the first one's coordinates. -/
theorem lidx256' (i : S320000x256.Idx) (k : Fin 256) : lidx_main_v3 i k = ix2 (i 0) k :=
  funext fun a => by match a with | ⟨0, _⟩ => rfl | ⟨1, _⟩ => rfl
theorem ridx256' (i : S320000x256.Idx) (k : Fin 256) : ridx_main_v3 i k = ix2 k (i 1) :=
  funext fun a => by match a with | ⟨0, _⟩ => rfl | ⟨1, _⟩ => rfl
/-- The bias is read in its only row, at i's column. -/
theorem bidx (i : S320000x256.Idx) : idx_main_v5 i = ix2 (0 : Fin 1) (i 1) :=
  funext fun a => by match a with | ⟨0, _⟩ => rfl | ⟨1, _⟩ => rfl

/-- The reference's result, as a function of its seven arguments, is the specification's layer. -/
theorem val_eq_layer (x s : S320000x256.Idx → EReal) (e : S320000x128.Idx → EReal)
    (w1 w3 : S256x256.Idx → EReal) (w2 : S128x256.Idx → EReal) (b : S1x256.Idx → EReal) :
    val_main_v7 (F := Ideal) x e s w1 w2 w3 b = Cert.LayerSpec.layer x e s w1 w2 w3 b := by
  funext i
  rw [val_main_v7_apply, val_main_v6_apply, val_main_v4_apply, val_main_v2_apply, val_main_v0_apply,
    val_main_v1_apply, val_main_v3_apply, val_main_v5_apply, val_main_call0_v0_apply, val_main_call0_cst_apply]
  simp only [lidx256, ridx256, lidx128, ridx128, lidx256', ridx256', bidx, Ideal.addf_def, Ideal.maximumf_def,
    Ideal.ofBits_def, Ideal.ofBits_zero_f32]
  rfl

end Cert.ReferenceIdeal.RefLayer

end
-- ==== Proof.lean ====
/-
  The kernel and its reference both compute one dense layer with a clamp,

      out = max (x · w1 + e · w2 + s · w3 + b, 0),

  on 320000 rows: x and s have 256 columns, e has 128, the three weight matrices map them to 256
  columns, and b is one bias row added to every row. Over the extended reals each matrix product is,
  entry by entry, a finite sum of products; both programs add the three products in the same order
  (first plus second, then the third, then the bias) and both clamp with a maximum against zero, so no
  law of arithmetic beyond reading the operations is needed, and the inputs' finiteness is never used.

  The reference does this in one piece on the host. The kernel cuts the rows into 50 bands of 6400 and
  computes one band per grid point from the band's rows of x, e and s and the whole of w1, w2, w3, b.
  Row r of the result depends only on row r of the features, so band t of the result is rows
  6400·t … 6400·t + 6399 of the whole layer, and the 50 bands cover every row.

  Proof/LayerSpec states the layer entry by entry; Proof/RefLayer shows the reference's result is it;
  Proof/KernelBand shows a grid point's stored value is the layer on its band; Proof/LayerBands that a
  band of the layer is the layer on a band; Proof/KernelLayer puts the bands together into the whole
  result array. The idealization changed no operation, so its faithfulness claim is empty.
-/
import proofs.«404895_j3556232921667_3_alg».proof.Defs
import proofs.«404895_j3556232921667_3_alg».proof.Proof.Gen.Kernel
import proofs.«404895_j3556232921667_3_alg».proof.Proof.Gen.Kernel.Skeleton
import proofs.«404895_j3556232921667_3_alg».proof.Proof.Gen.Kernel.Launch
import proofs.«404895_j3556232921667_3_alg».proof.Proof.Gen.Kernel.Points
import proofs.«404895_j3556232921667_3_alg».proof.Proof.Gen.Kernel.Frame
import proofs.«404895_j3556232921667_3_alg».proof.Proof.Gen.KernelIdeal
import proofs.«404895_j3556232921667_3_alg».proof.Proof.Gen.KernelIdeal.Skeleton
import proofs.«404895_j3556232921667_3_alg».proof.Proof.Gen.KernelIdeal.Launch
import proofs.«404895_j3556232921667_3_alg».proof.Proof.Gen.KernelIdeal.Points
import proofs.«404895_j3556232921667_3_alg».proof.Proof.Gen.KernelIdeal.Frame
import proofs.«404895_j3556232921667_3_alg».proof.Proof.Gen.ReferenceIdeal
import proofs.«404895_j3556232921667_3_alg».proof.Proof.Gen.Pre_finite_inputs
import proofs.«404895_j3556232921667_3_alg».proof.Proof.Gen.KernelIdeal.Value
import proofs.«404895_j3556232921667_3_alg».proof.Proof.Gen.ReferenceIdeal.Run
import proofs.«404895_j3556232921667_3_alg».proof.Proof.Gen.ReferenceIdeal.Read
import proofs.«404895_j3556232921667_3_alg».proof.Proof.KernelLayer
import proofs.«404895_j3556232921667_3_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed terminates without a fault and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the seven arguments, the kernel's result array and the reference's
    result are the same layer of the same arrays. -/
theorem algebraic : Cert.algebraic_KernelIdeal_ReferenceIdeal := by
  intro m ρ m' ρ' _ hagree
  refine ⟨fun c => Cert.KernelIdeal.Layer.layerOf m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefLayer.val_eq_layer,
    (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
